-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128 .f32) (main_arg5 : FVec F S128x1 .f32) (main_arg6 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x256 .f32) (main_arg1 : FVec F S256x128 .f32) (main_arg2 : FVec F S128 .f32) (main_arg3 : FVec F S128x128 .f32) (main_arg4 : FVec F S128 .f32) (main_arg5 : FVec F S128x1 .f32) (main_arg6 : FVec F S1 .f32) (main_arg7 : IVec S1600000 32) (main_arg8 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S1x1 : Shape := ⟨2, ![1, 1]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1600000x128 : Shape := ⟨2, ![1600000, 128]⟩
abbrev S4000 : Shape := ⟨1, ![4000]⟩

abbrev nBuf : Space → Nat
  | .hbm => 66
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S1x1, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .local _ .vmem, ⟨0, _⟩ => ⟨S4000x256, .f32⟩
  | .local _ .vmem, ⟨1, _⟩ => ⟨S4000x256, .f32⟩
  | .local _ .vmem, ⟨2, _⟩ => ⟨S4000x1, .f32⟩
  | .local _ .vmem, ⟨3, _⟩ => ⟨S4000x1, .f32⟩
  | .local _ .vmem, ⟨4, _⟩ => ⟨S256x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S4000x1, .f32⟩
  | .local _ .vmem, ⟨13, _⟩ => ⟨S4000x1, .f32⟩
  | .local _ .vmem, ⟨14, _⟩ => ⟨S128x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x1, .f32⟩
  | .local _ .vmem, ⟨20, _⟩ => ⟨S4000x1, .f32⟩
  | .local _ .vmem, ⟨21, _⟩ => ⟨S1x128, .f32⟩
  | .local _ .vmem, ⟨22, _⟩ => ⟨S1x128, .f32⟩
  | .local _ .vmem, ⟨23, _⟩ => ⟨S1x1, .f32⟩
  | .local _ .vmem, ⟨24, _⟩ => ⟨S4000x1, .f32⟩
  | .local _ .vmem, ⟨25, _⟩ => ⟨S4000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_8 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_10 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S128x1_S1x128 : S128x1.ShapeCasts S1x128
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  shapeCasts_S4000x128_S4000x128 : S4000x128.ShapeCasts S4000x128
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  reduces_S4000x128_S4000 : S4000x128.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S1600000x1_S1600000_n_0_0_1_wf : ScatterDims.WF S100000 S1600000x1 S1600000 [] [0] [0] 1
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S100000x1.size a
  hwx2_5 : ∀ i : grid2.Coords, EltTy.bits .f32 = 32 ∨ (Rect.block (s := S100000x1) S4000x1.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v20) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S4000x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x1, .f32⟩
  | .hbm, ⟨6, _⟩ => ⟨S1, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x256, .f32⟩
  | .hbm, ⟨33, _⟩ => ⟨S100000x256, .f32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S100000x128, .f32⟩
  | .hbm, ⟨72, _⟩ => ⟨S1600000x1, .i32⟩
  | .hbm, ⟨73, _⟩ => ⟨S100000x128, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x1, .f32⟩
  | .hbm, ⟨81, _⟩ => ⟨S1x1, .f32⟩
  | .hbm, ⟨82, _⟩ => ⟨S100000x1, .f32⟩
  | .hbm, ⟨83, _⟩ => ⟨S100000x1, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_cst_3 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_call0_cst : Ref sig .tc := ⟨.hbm, 54, rfl⟩
abbrev main_call0_v0 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.LibKeepdims.lean ====
/-
  The keepdims column forms of a row reduction, read at an index: a vector `[a]` cast to the column `[a, 1]`, and a
  column `[a, 1]` broadcast along the lanes to `[a, b]` (what `jnp.sum(x, axis=-1, keepdims=True)` followed by a
  broadcast against `[a, b]` lowers to in a kernel body). General in the extents and the element type.
-/
import Idealize.ShloMosaic.Lib.Pipeline.Value
import Idealize.ShloMosaic.Lib.ValueIdx

namespace Cert.LibKeepdims

open Idealize.ShloMosaic Idealize.ShloMosaic.ValueIdx

/-- A vector `[a]` cast to the column `[a, 1]` reads, at `(i, u)`, the operand at `i`, whatever the unit coordinate. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Region0.lean ====
/-
  The first region read as one whole-array function. Each of its 25 grid points loads 4000 rows of the features, the
  same rows of the source-norm column and the whole weight matrix, and stores (rows × norm) · weights. At the extended
  reals the change to bf16 is the identity and a product into a zero accumulator is the sum over the 256 features, so
  the block a point stores is that point's block of `scaledProduct`; the 25 blocks tile the output array.
-/
import proofs.«180304_j56487409877510_1_alg».proof.Proof.Gen.KernelIdeal.Frame
import proofs.«180304_j56487409877510_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ScaleMatmul

open Cert.KernelIdeal Cert.KernelIdeal.Gen Idealize.ShloMosaic Idealize.ShloMosaic.TcCoe Idealize.SL.Sem
open Idealize.ShloMosaic.ValueIdx

theorem lhs_axis0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs_axis1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs_axis0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs_axis1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Entry (p, q) of the block the body stores: the row p of the scaled features against column q of the weights. -/
theorem payload_apply (x0 : Vec Ideal S4000x256 .f32) (x1 : Vec Ideal S4000x1 .f32) (x2 : Vec Ideal S256x128 .f32)
    (p : Fin 4000) (q : Fin 128) :
    k0_pay1 (F := Ideal) x0 x1 x2 (ix2 p q) = ∑ k : Fin 256, (x0 (ix2 p k) * x1 (ix2 p (0 : Fin 1))) * x2 (ix2 k q) := by
  unfold k0_pay1
  refine (Ideal.matmul_constant_zero_apply dot_S4000x256_S256x128_S4000x128_1_0_0_1_n_n none _ _ (ix2 p q)).trans ?_
  rw [← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p q) ((ValueIdx.contrEquiv1 dot_S4000x256_S256x128_S4000x128_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S4000x256_S256x128_S4000x128_1_0_0_1_n_n.rhsIdx (ix2 p q) ((ValueIdx.contrEquiv1 dot_S4000x256_S256x128_S4000x128_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]
  show x0 (ix2 p k) * broadcastTo S4000x256 (shapeCast S4000x1 x1 shapeCasts_S4000x1_S4000x1) broadcasts_S4000x1_S4000x256 (ix2 p k) * x2 (ix2 k q) = _
  rw [Cert.LibKeepdims.broadcastTo_a1_ab_apply, shapeCast_self]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the weights stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row r, column q of the product of the row-scaled features with the weights. -/
def scaledProduct (X : S100000x256.Idx → EReal) (S : S100000x1.Idx → EReal) (W : S256x128.Idx → EReal) : S100000x128.Idx → EReal :=
  fun i => ∑ k : Fin 256, (X (ix2 (⟨(i 0).val, (i 0).isLt⟩ : Fin 100000) k) * S (ix2 (⟨(i 0).val, (i 0).isLt⟩ : Fin 100000) (0 : Fin 1))) * W (ix2 k (⟨(i 1).val, (i 1).isLt⟩ : Fin 128))

/-- Point t's block of the features is rows 4000·t … of the array. -/
theorem rows_apply (c : Dev nD) (t : Fin cfg0.N) (p : Fin 4000) (k : Fin 256) (r : Fin 100000) (hr : r.val = t.val * 4000 + p.val) :
    (iblk0 V c 0 t : Vec Ideal S4000x256 .f32) (ix2 p k) = (V c main_arg0 : S100000x256.Idx → EReal) (ix2 r k) := by
  obtain ⟨e00, e01, -⟩ := idx_facts t
  unfold iblk0
  rw [View.read_apply]
  show V c main_arg0 _ = V c main_arg0 _
  refine congrArg (V c main_arg0) (funext fun a => Fin.ext ?_)
  match a with
  | ⟨0, _⟩ => show win0_0.index t 0 * 4000 + 1 * p.val = r.val; rw [e00, hr]; omega
  | ⟨1, _⟩ => show win0_0.index t 1 * 256 + 1 * k.val = k.val; rw [e01]; omega

/-- Point t's block of the scale column is rows 4000·t … of the column. -/
theorem scale_apply (c : Dev nD) (t : Fin cfg0.N) (p : Fin 4000) (r : Fin 100000) (hr : r.val = t.val * 4000 + p.val) :
    (iblk0 V c 1 t : Vec Ideal S4000x1 .f32) (ix2 p (0 : Fin 1)) = (V c main_v11 : S100000x1.Idx → EReal) (ix2 r (0 : Fin 1)) := by
  obtain ⟨-, -, e10, e11, -⟩ := idx_facts t
  unfold iblk0
  rw [View.read_apply]
  show V c main_v11 _ = V c main_v11 _
  refine congrArg (V c main_v11) (funext fun a => Fin.ext ?_)
  match a with
  | ⟨0, _⟩ => show win0_1.index t 0 * 4000 + 1 * p.val = r.val; rw [e10, hr]; omega
  | ⟨1, _⟩ => show win0_1.index t 1 * 1 + 1 * 0 = 0; rw [e11]

/-- Every point's block of the weights is the whole array. -/
theorem weights_apply (c : Dev nD) (t : Fin cfg0.N) (k : Fin 256) (q : Fin 128) :
    (iblk0 V c 2 t : Vec Ideal S256x128 .f32) (ix2 k q) = (V c main_arg1 : S256x128.Idx → EReal) (ix2 k q) := by
  obtain ⟨-, -, -, -, e20, e21, -⟩ := idx_facts t
  unfold iblk0
  rw [View.read_apply]
  show V c main_arg1 _ = V c main_arg1 _
  refine congrArg (V c main_arg1) (funext fun a => Fin.ext ?_)
  match a with
  | ⟨0, _⟩ => show win0_2.index t 0 * 256 + 1 * k.val = k.val; rw [e20]; omega
  | ⟨1, _⟩ => show win0_2.index t 1 * 128 + 1 * q.val = q.val; rw [e21]; omega

theorem flushed_eq (c : Dev nD) (t : Fin cfg0.N) :
    (dat0 V c).flushed 3 t = ((cfg0.win 3).blk t).view.read (Elt Ideal) (scaledProduct (V c main_arg0) (V c main_v11) (V c main_arg1)) := by
  show (cfg0.win 3).cut (grid0.coords t) ((dat0 V c).after 3 t) = _
  rw [after0_3]
  unfold out0_3
  rw [View.canon_unit_zero hz]
  simp only [View.ld_unit_zero (S := S4000x256) hz, View.ld_unit_zero (S := S4000x1) hz, View.ld_unit_zero (S := S256x128) hz]
  obtain ⟨e00, e01, e10, e11, e20, e21, e30, e31⟩ := idx_facts t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (ix2 p q) = scaledProduct (V c main_arg0) (V c main_v11) (V c main_arg1) (((cfg0.win 3).blk t).view.emb (ix2 p q))
  refine (payload_apply (iblk0 V c 0 t) (iblk0 V c 1 t) (iblk0 V c 2 t) p q).trans ?_
  unfold scaledProduct
  refine Finset.sum_congr rfl fun k _ => ?_
  have hr : (((cfg0.win 3).blk t).view.emb (ix2 p q) 0).val = t.val * 4000 + p.val := by
    show win0_3.index t 0 * 4000 + 1 * p.val = _; rw [e30]; omega
  have hq : (((cfg0.win 3).blk t).view.emb (ix2 p q) 1).val = q.val := by
    show win0_3.index t 1 * 128 + 1 * q.val = _; rw [e31]; omega
  rw [rows_apply V c t p k ⟨_, (((cfg0.win 3).blk t).view.emb (ix2 p q) 0).isLt⟩ hr,
    scale_apply V c t p ⟨_, (((cfg0.win 3).blk t).view.emb (ix2 p q) 0).isLt⟩ hr, weights_apply V c t k q]
  rw [show (⟨(((cfg0.win 3).blk t).view.emb (ix2 p q) 1).val, (((cfg0.win 3).blk t).view.emb (ix2 p q) 1).isLt⟩ : Fin 128) = q from Fin.ext hq]

/-- An index of the array is in point t's block iff each coordinate is in the block's range. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v21).slice (win0_3.rect t)).set ↔ _
  rw [View.set_slice_whole, Rect.mem_set_unit]
  exact Iff.rfl

/-- Every row lies in the block of the point row / 4000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  refine ⟨⟨(i 0).val / 4000, by rw [show cfg0.N = 25 from N_0]; omega⟩, flush0_3 _, ?_⟩
  rw [mem_blk]
  obtain ⟨-, -, -, -, -, -, e30, e31⟩ := idx_facts ⟨(i 0).val / 4000, by rw [show cfg0.N = 25 from N_0]; omega⟩
  intro a
  match a with
  | ⟨0, _⟩ => show win0_3.index _ 0 * 4000 ≤ (i 0).val ∧ (i 0).val < win0_3.index _ 0 * 4000 + 4000; rw [e30]; show (i 0).val / 4000 * 4000 ≤ (i 0).val ∧ (i 0).val < (i 0).val / 4000 * 4000 + 4000; omega
  | ⟨1, _⟩ => show win0_3.index _ 1 * 128 ≤ (i 1).val ∧ (i 1).val < win0_3.index _ 1 * 128 + 128; rw [e31]; omega

/-- The region's output array after its run: the product of the row-scaled features with the weights. -/
theorem final (c : Dev nD) :
    (dat0 V c).arrAt 3 cfg0.N = scaledProduct (V c main_arg0) (V c main_v11) (V c main_arg1) :=
  (dat0 V c).arrAt_eq_of_cover 3 _ (fun t _ => flushed_eq V c t) cover

end Cert.KernelIdeal.ScaleMatmul

end
-- ==== Proof.Region1.lean ====
/-
  The second region read as one whole-array function. Each of its 25 grid points loads 4000 rows of the first
  aggregate and of the two norm columns, the bias row and the whole weight matrix, and stores
  (max(aggregate × destination norm + bias, 0) × source norm) · weights. At the extended reals the product is the sum
  over the 128 hidden entries, so the block a point stores is that point's block of `hiddenProduct`; the 25 blocks
  tile the output array.
-/
import proofs.«180304_j56487409877510_1_alg».proof.Proof.Gen.KernelIdeal.Frame
import proofs.«180304_j56487409877510_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FusedLayer

open Cert.KernelIdeal Cert.KernelIdeal.Gen Idealize.ShloMosaic Idealize.ShloMosaic.TcCoe Idealize.SL.Sem
open Idealize.ShloMosaic.ValueIdx

theorem lhs_axis0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_axis1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_axis0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_axis1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- Entry (p, k) of the hidden activation the body forms before its product: the aggregate scaled by the
    destination norm, the bias added, clamped at zero, scaled by the source norm. -/
def hidden (a d b s : EReal) : EReal := max (a * d + b) (Scalar.ofBits (F := Ideal) .f32 0x00000000#32) * s

/-- Entry (p, q) of the block the body stores: row p of the hidden activation against column q of the weights. -/
theorem payload_apply (x0 : Vec Ideal S4000x128 .f32) (x1 : Vec Ideal S4000x1 .f32) (x2 : Vec Ideal S1x128 .f32)
    (x3 : Vec Ideal S4000x1 .f32) (x4 : Vec Ideal S128x128 .f32) (p : Fin 4000) (q : Fin 128) :
    k1_pay1 (F := Ideal) x0 x1 x2 x3 x4 (ix2 p q)
      = ∑ k : Fin 128, hidden (x0 (ix2 p k)) (x1 (ix2 p (0 : Fin 1))) (x2 (ix2 (0 : Fin 1) k)) (x3 (ix2 p (0 : Fin 1))) * x4 (ix2 k q) := by
  unfold k1_pay1
  refine (Ideal.matmul_constant_zero_apply dot_S4000x128_S128x128_S4000x128_1_0_0_1_n_n none _ _ (ix2 p q)).trans ?_
  rw [← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]
  show max (shapeCast S4000x128 x0 shapeCasts_S4000x128_S4000x128 (ix2 p k) * broadcastTo S4000x128 (shapeCast S4000x1 x1 shapeCasts_S4000x1_S4000x1) broadcasts_S4000x1_S4000x128 (ix2 p k)
      + broadcastTo S4000x128 (shapeCast S1x128 x2 shapeCasts_S1x128_S1x128) broadcasts_S1x128_S4000x128 (ix2 p k)) (Scalar.ofBits (F := Ideal) .f32 0x00000000#32)
      * broadcastTo S4000x128 (shapeCast S4000x1 x3 shapeCasts_S4000x1_S4000x1) broadcasts_S4000x1_S4000x128 (ix2 p k) * x4 (ix2 k q) = _
  rw [Cert.LibKeepdims.broadcastTo_a1_ab_apply, Cert.LibKeepdims.broadcastTo_a1_ab_apply, broadcastTo_1b_ab_apply, shapeCast_self, shapeCast_self, shapeCast_self, shapeCast_self]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the bias row and the weights stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row r, column q of the product of the hidden activation with the weights. -/
def hiddenProduct (A : S100000x128.Idx → EReal) (D : S100000x1.Idx → EReal) (B : S1x128.Idx → EReal) (S : S100000x1.Idx → EReal)
    (W : S128x128.Idx → EReal) : S100000x128.Idx → EReal :=
  fun i => ∑ k : Fin 128, hidden (A (ix2 (⟨(i 0).val, (i 0).isLt⟩ : Fin 100000) k)) (D (ix2 (⟨(i 0).val, (i 0).isLt⟩ : Fin 100000) (0 : Fin 1)))
      (B (ix2 (0 : Fin 1) k)) (S (ix2 (⟨(i 0).val, (i 0).isLt⟩ : Fin 100000) (0 : Fin 1))) * W (ix2 k (⟨(i 1).val, (i 1).isLt⟩ : Fin 128))

/-- Point t's block of the aggregate is rows 4000·t … of the array. -/
theorem rows_apply (c : Dev nD) (t : Fin cfg1.N) (p : Fin 4000) (k : Fin 128) (r : Fin 100000) (hr : r.val = t.val * 4000 + p.val) :
    (iblk1 V c 0 t : Vec Ideal S4000x128 .f32) (ix2 p k) = (V c main_v31 : S100000x128.Idx → EReal) (ix2 r k) := by
  obtain ⟨e00, e01, -⟩ := idx_facts t
  unfold iblk1
  rw [View.read_apply]
  show V c main_v31 _ = V c main_v31 _
  refine congrArg (V c main_v31) (funext fun a => Fin.ext ?_)
  match a with
  | ⟨0, _⟩ => show win1_0.index t 0 * 4000 + 1 * p.val = r.val; rw [e00, hr]; omega
  | ⟨1, _⟩ => show win1_0.index t 1 * 128 + 1 * k.val = k.val; rw [e01]; omega

/-- Point t's block of the destination-norm column is rows 4000·t … of the column. -/
theorem dnorm_apply (c : Dev nD) (t : Fin cfg1.N) (p : Fin 4000) (r : Fin 100000) (hr : r.val = t.val * 4000 + p.val) :
    (iblk1 V c 1 t : Vec Ideal S4000x1 .f32) (ix2 p (0 : Fin 1)) = (V c main_v16 : S100000x1.Idx → EReal) (ix2 r (0 : Fin 1)) := by
  obtain ⟨-, -, e10, e11, -⟩ := idx_facts t
  unfold iblk1
  rw [View.read_apply]
  show V c main_v16 _ = V c main_v16 _
  refine congrArg (V c main_v16) (funext fun a => Fin.ext ?_)
  match a with
  | ⟨0, _⟩ => show win1_1.index t 0 * 4000 + 1 * p.val = r.val; rw [e10, hr]; omega
  | ⟨1, _⟩ => show win1_1.index t 1 * 1 + 1 * 0 = 0; rw [e11]

/-- Every point's block of the bias row is the whole row. -/
theorem bias_apply (c : Dev nD) (t : Fin cfg1.N) (k : Fin 128) :
    (iblk1 V c 2 t : Vec Ideal S1x128 .f32) (ix2 (0 : Fin 1) k) = (V c main_v17 : S1x128.Idx → EReal) (ix2 (0 : Fin 1) k) := by
  obtain ⟨-, -, -, -, e20, e21, -⟩ := idx_facts t
  unfold iblk1
  rw [View.read_apply]
  show V c main_v17 _ = V c main_v17 _
  refine congrArg (V c main_v17) (funext fun a => Fin.ext ?_)
  match a with
  | ⟨0, _⟩ => show win1_2.index t 0 * 1 + 1 * 0 = 0; rw [e20]
  | ⟨1, _⟩ => show win1_2.index t 1 * 128 + 1 * k.val = k.val; rw [e21]; omega

/-- Point t's block of the source-norm column is rows 4000·t … of the column. -/
theorem snorm_apply (c : Dev nD) (t : Fin cfg1.N) (p : Fin 4000) (r : Fin 100000) (hr : r.val = t.val * 4000 + p.val) :
    (iblk1 V c 3 t : Vec Ideal S4000x1 .f32) (ix2 p (0 : Fin 1)) = (V c main_v11 : S100000x1.Idx → EReal) (ix2 r (0 : Fin 1)) := by
  obtain ⟨-, -, -, -, -, -, e30, e31, -⟩ := idx_facts t
  unfold iblk1
  rw [View.read_apply]
  show V c main_v11 _ = V c main_v11 _
  refine congrArg (V c main_v11) (funext fun a => Fin.ext ?_)
  match a with
  | ⟨0, _⟩ => show win1_3.index t 0 * 4000 + 1 * p.val = r.val; rw [e30, hr]; omega
  | ⟨1, _⟩ => show win1_3.index t 1 * 1 + 1 * 0 = 0; rw [e31]

/-- Every point's block of the weights is the whole array. -/
theorem weights_apply (c : Dev nD) (t : Fin cfg1.N) (k : Fin 128) (q : Fin 128) :
    (iblk1 V c 4 t : Vec Ideal S128x128 .f32) (ix2 k q) = (V c main_arg3 : S128x128.Idx → EReal) (ix2 k q) := by
  obtain ⟨-, -, -, -, -, -, -, -, e40, e41, -⟩ := idx_facts t
  unfold iblk1
  rw [View.read_apply]
  show V c main_arg3 _ = V c main_arg3 _
  refine congrArg (V c main_arg3) (funext fun a => Fin.ext ?_)
  match a with
  | ⟨0, _⟩ => show win1_4.index t 0 * 128 + 1 * k.val = k.val; rw [e40]; omega
  | ⟨1, _⟩ => show win1_4.index t 1 * 128 + 1 * q.val = q.val; rw [e41]; omega

/-- What point t writes back is block t of the hidden product of the arrays as the region finds them. -/
theorem flushed_eq (c : Dev nD) (t : Fin cfg1.N) :
    (dat1 V c).flushed 5 t = ((cfg1.win 5).blk t).view.read (Elt Ideal)
      (hiddenProduct (V c main_v31) (V c main_v16) (V c main_v17) (V c main_v11) (V c main_arg3)) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz, View.ld_unit_zero (S := S1x128) hz, View.ld_unit_zero (S := S128x128) hz]
  obtain ⟨-, -, -, -, -, -, -, -, -, -, e50, e51⟩ := idx_facts t
  funext j
  obtain ⟨p, q, rfl⟩ : ∃ (p : Fin 4000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = hiddenProduct (V c main_v31) (V c main_v16) (V c main_v17) (V c main_v11) (V c main_arg3) (((cfg1.win 5).blk t).view.emb (ix2 p q))
  refine (payload_apply (iblk1 V c 0 t) (iblk1 V c 1 t) (iblk1 V c 2 t) (iblk1 V c 3 t) (iblk1 V c 4 t) p q).trans ?_
  unfold hiddenProduct
  refine Finset.sum_congr rfl fun k _ => ?_
  have hr : (((cfg1.win 5).blk t).view.emb (ix2 p q) 0).val = t.val * 4000 + p.val := by
    show win1_5.index t 0 * 4000 + 1 * p.val = _; rw [e50]; omega
  have hq : (((cfg1.win 5).blk t).view.emb (ix2 p q) 1).val = q.val := by
    show win1_5.index t 1 * 128 + 1 * q.val = _; rw [e51]; omega
  rw [rows_apply V c t p k ⟨_, (((cfg1.win 5).blk t).view.emb (ix2 p q) 0).isLt⟩ hr,
    dnorm_apply V c t p ⟨_, (((cfg1.win 5).blk t).view.emb (ix2 p q) 0).isLt⟩ hr, bias_apply V c t k,
    snorm_apply V c t p ⟨_, (((cfg1.win 5).blk t).view.emb (ix2 p q) 0).isLt⟩ hr, weights_apply V c t k q]
  rw [show (⟨(((cfg1.win 5).blk t).view.emb (ix2 p q) 1).val, (((cfg1.win 5).blk t).view.emb (ix2 p q) 1).isLt⟩ : Fin 128) = q from Fin.ext hq]

/-- An index of the array is in point t's block iff each coordinate is in the block's range. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v32).slice (win1_5.rect t)).set ↔ _
  rw [View.set_slice_whole, Rect.mem_set_unit]
  exact Iff.rfl

/-- Every row lies in the block of the point row / 4000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 4000, by rw [show cfg1.N = 25 from N_1]; omega⟩, flush1_5 _, ?_⟩
  rw [mem_blk]
  obtain ⟨-, -, -, -, -, -, -, -, -, -, e50, e51⟩ := idx_facts ⟨(i 0).val / 4000, by rw [show cfg1.N = 25 from N_1]; omega⟩
  intro a
  match a with
  | ⟨0, _⟩ => show win1_5.index _ 0 * 4000 ≤ (i 0).val ∧ (i 0).val < win1_5.index _ 0 * 4000 + 4000; rw [e50]; show (i 0).val / 4000 * 4000 ≤ (i 0).val ∧ (i 0).val < (i 0).val / 4000 * 4000 + 4000; omega
  | ⟨1, _⟩ => show win1_5.index _ 1 * 128 ≤ (i 1).val ∧ (i 1).val < win1_5.index _ 1 * 128 + 128; rw [e51]; omega

/-- The region's output array after its run: the hidden product of the arrays as the region finds them. -/
theorem final (c : Dev nD) :
    (dat1 V c).arrAt 5 cfg1.N = hiddenProduct (V c main_v31) (V c main_v16) (V c main_v17) (V c main_v11) (V c main_arg3) :=
  (dat1 V c).arrAt_eq_of_cover 5 _ (fun t _ => flushed_eq V c t) cover

end Cert.KernelIdeal.FusedLayer

end
-- ==== Proof.Region2.lean ====
/-
  The third region read as one whole-array function. Each of its 25 grid points loads 4000 rows of the second
  aggregate and of the destination-norm column, the bias row, the class-weight row and the class bias, and stores the
  lane sum of (aggregate × norm + bias) × class weight, plus the class bias. At the extended reals the lane sum is the
  sum over the 128 lanes, so the block a point stores is that point's block of `classColumn`; the 25 blocks tile the
  output column.
-/
import proofs.«180304_j56487409877510_1_alg».proof.Proof.Gen.KernelIdeal.Frame
import proofs.«180304_j56487409877510_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.FinalLayer

open Cert.KernelIdeal Cert.KernelIdeal.Gen Idealize.ShloMosaic Idealize.ShloMosaic.TcCoe Idealize.SL.Sem
open Idealize.ShloMosaic.ValueIdx

/-- The source index over row p with lane k inserted is (p, k). -/
theorem lift_row (h : S4000x128.Reduces [1] S4000) (p : Fin 4000) (k : Fin 128) :
    h.lift (ix1 p) k = ix2 p k :=
  funext fun c => Fin.ext (by
    match c with
    | ⟨0, _⟩ => rfl
    | ⟨1, _⟩ => rfl)

/-- A lane sum whose accumulator is the zero word, read at row p: the sum over the lanes. -/
theorem laneSum_apply (src : FVec Ideal S4000x128 .f32) (h : S4000x128.Reduces [1] S4000)
    (hφ : FKind.Formats FTy.f32) (hacc : (0x00000000#32 : BitVec 32) = 0x00000000#32) (p : Fin 4000) :
    multiReduction .add [1] S4000 src 0x00000000#32 h hφ hacc (ix1 p) = ∑ k : Fin 128, src (ix2 p k) := by
  refine (Ideal.multiReduction_add_single src 0x00000000#32 h hφ hacc (ix1 p)).trans ?_
  exact Finset.sum_congr rfl fun k _ => congrArg src (lift_row h p k)

/-- Entry p of the column the body stores: row p of the biased, normalised aggregate against the class weights,
    the class bias added. -/
theorem payload_apply (x0 : Vec Ideal S4000x128 .f32) (x1 : Vec Ideal S4000x1 .f32) (x2 : Vec Ideal S1x128 .f32)
    (x3 : Vec Ideal S1x128 .f32) (x4 : Vec Ideal S1x1 .f32) (p : Fin 4000) (u : Fin 1) :
    k2_pay1 (F := Ideal) x0 x1 x2 x3 x4 (ix2 p u)
      = (∑ k : Fin 128, (x0 (ix2 p k) * x1 (ix2 p (0 : Fin 1)) + x2 (ix2 (0 : Fin 1) k)) * x3 (ix2 (0 : Fin 1) k))
        + x4 (ix2 (0 : Fin 1) (0 : Fin 1)) := by
  unfold k2_pay1
  refine (addf_apply _ _ _).trans ?_
  refine congrArg₂ (· + ·) ?_ ?_
  · refine (Cert.LibKeepdims.shapeCast_a_a1_apply _ _ p u).trans ?_
    refine (laneSum_apply _ _ _ _ p).trans ?_
    refine Finset.sum_congr rfl fun k _ => ?_
    show (shapeCast S4000x128 x0 shapeCasts_S4000x128_S4000x128 (ix2 p k) * broadcastTo S4000x128 (shapeCast S4000x1 x1 shapeCasts_S4000x1_S4000x1) broadcasts_S4000x1_S4000x128 (ix2 p k)
        + broadcastTo S4000x128 (shapeCast S1x128 x2 shapeCasts_S1x128_S1x128) broadcasts_S1x128_S4000x128 (ix2 p k))
        * broadcastTo S4000x128 (shapeCast S1x128 x3 shapeCasts_S1x128_S1x128) broadcasts_S1x128_S4000x128 (ix2 p k) = _
    rw [Cert.LibKeepdims.broadcastTo_a1_ab_apply, broadcastTo_1b_ab_apply, broadcastTo_1b_ab_apply, shapeCast_self, shapeCast_self, shapeCast_self, shapeCast_self]
  · refine (broadcastTo_1b_ab_apply _ _ p u).trans ?_
    rw [shapeCast_self, show u = (0 : Fin 1) from Fin.ext (by omega)]

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows move with the point, the three rows stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of the output column: the biased, normalised aggregate's row against the class weights, the class bias added. -/
def classColumn (A : S100000x128.Idx → EReal) (D : S100000x1.Idx → EReal) (B : S1x128.Idx → EReal) (Wf : S1x128.Idx → EReal)
    (Bf : S1x1.Idx → EReal) : S100000x1.Idx → EReal :=
  fun i => (∑ k : Fin 128, (A (ix2 (⟨(i 0).val, (i 0).isLt⟩ : Fin 100000) k) * D (ix2 (⟨(i 0).val, (i 0).isLt⟩ : Fin 100000) (0 : Fin 1))
      + B (ix2 (0 : Fin 1) k)) * Wf (ix2 (0 : Fin 1) k)) + Bf (ix2 (0 : Fin 1) (0 : Fin 1))

/-- Point t's block of the aggregate is rows 4000·t … of the array. -/
theorem rows_apply (c : Dev nD) (t : Fin cfg2.N) (p : Fin 4000) (k : Fin 128) (r : Fin 100000) (hr : r.val = t.val * 4000 + p.val) :
    (iblk2 V c 0 t : Vec Ideal S4000x128 .f32) (ix2 p k) = (V c main_v42 : S100000x128.Idx → EReal) (ix2 r k) := by
  obtain ⟨e00, e01, -⟩ := idx_facts t
  unfold iblk2
  rw [View.read_apply]
  show V c main_v42 _ = V c main_v42 _
  refine congrArg (V c main_v42) (funext fun a => Fin.ext ?_)
  match a with
  | ⟨0, _⟩ => show win2_0.index t 0 * 4000 + 1 * p.val = r.val; rw [e00, hr]; omega
  | ⟨1, _⟩ => show win2_0.index t 1 * 128 + 1 * k.val = k.val; rw [e01]; omega

/-- Point t's block of the destination-norm column is rows 4000·t … of the column. -/
theorem dnorm_apply (c : Dev nD) (t : Fin cfg2.N) (p : Fin 4000) (r : Fin 100000) (hr : r.val = t.val * 4000 + p.val) :
    (iblk2 V c 1 t : Vec Ideal S4000x1 .f32) (ix2 p (0 : Fin 1)) = (V c main_v16 : S100000x1.Idx → EReal) (ix2 r (0 : Fin 1)) := by
  obtain ⟨-, -, e10, e11, -⟩ := idx_facts t
  unfold iblk2
  rw [View.read_apply]
  show V c main_v16 _ = V c main_v16 _
  refine congrArg (V c main_v16) (funext fun a => Fin.ext ?_)
  match a with
  | ⟨0, _⟩ => show win2_1.index t 0 * 4000 + 1 * p.val = r.val; rw [e10, hr]; omega
  | ⟨1, _⟩ => show win2_1.index t 1 * 1 + 1 * 0 = 0; rw [e11]

/-- Every point's block of the bias row is the whole row. -/
theorem bias_apply (c : Dev nD) (t : Fin cfg2.N) (k : Fin 128) :
    (iblk2 V c 2 t : Vec Ideal S1x128 .f32) (ix2 (0 : Fin 1) k) = (V c main_v18 : S1x128.Idx → EReal) (ix2 (0 : Fin 1) k) := by
  obtain ⟨-, -, -, -, e20, e21, -⟩ := idx_facts t
  unfold iblk2
  rw [View.read_apply]
  show V c main_v18 _ = V c main_v18 _
  refine congrArg (V c main_v18) (funext fun a => Fin.ext ?_)
  match a with
  | ⟨0, _⟩ => show win2_2.index t 0 * 1 + 1 * 0 = 0; rw [e20]
  | ⟨1, _⟩ => show win2_2.index t 1 * 128 + 1 * k.val = k.val; rw [e21]; omega

/-- Every point's block of the class-weight row is the whole row. -/
theorem cweights_apply (c : Dev nD) (t : Fin cfg2.N) (k : Fin 128) :
    (iblk2 V c 3 t : Vec Ideal S1x128 .f32) (ix2 (0 : Fin 1) k) = (V c main_v19 : S1x128.Idx → EReal) (ix2 (0 : Fin 1) k) := by
  obtain ⟨-, -, -, -, -, -, e30, e31, -⟩ := idx_facts t
  unfold iblk2
  rw [View.read_apply]
  show V c main_v19 _ = V c main_v19 _
  refine congrArg (V c main_v19) (funext fun a => Fin.ext ?_)
  match a with
  | ⟨0, _⟩ => show win2_3.index t 0 * 1 + 1 * 0 = 0; rw [e30]
  | ⟨1, _⟩ => show win2_3.index t 1 * 128 + 1 * k.val = k.val; rw [e31]; omega

/-- Every point's block of the class bias is the one entry. -/
theorem cbias_apply (c : Dev nD) (t : Fin cfg2.N) :
    (iblk2 V c 4 t : Vec Ideal S1x1 .f32) (ix2 (0 : Fin 1) (0 : Fin 1)) = (V c main_v20 : S1x1.Idx → EReal) (ix2 (0 : Fin 1) (0 : Fin 1)) := by
  obtain ⟨-, -, -, -, -, -, -, -, e40, e41, -⟩ := idx_facts t
  unfold iblk2
  rw [View.read_apply]
  show V c main_v20 _ = V c main_v20 _
  refine congrArg (V c main_v20) (funext fun a => Fin.ext ?_)
  match a with
  | ⟨0, _⟩ => show win2_4.index t 0 * 1 + 1 * 0 = 0; rw [e40]
  | ⟨1, _⟩ => show win2_4.index t 1 * 1 + 1 * 0 = 0; rw [e41]

/-- What point t writes back is block t of the class column of the arrays as the region finds them. -/
theorem flushed_eq (c : Dev nD) (t : Fin cfg2.N) :
    (dat2 V c).flushed 5 t = ((cfg2.win 5).blk t).view.read (Elt Ideal)
      (classColumn (V c main_v42) (V c main_v16) (V c main_v18) (V c main_v19) (V c main_v20)) := by
  show (cfg2.win 5).cut (grid2.coords t) ((dat2 V c).after 5 t) = _
  rw [after2_5]
  unfold out2_5
  rw [View.canon_unit_zero hz]
  simp only [View.ld_unit_zero (S := S4000x128) hz, View.ld_unit_zero (S := S4000x1) hz, View.ld_unit_zero (S := S1x128) hz, View.ld_unit_zero (S := S1x1) hz]
  obtain ⟨-, -, -, -, -, -, -, -, -, -, e50, e51⟩ := idx_facts t
  funext j
  obtain ⟨p, u, rfl⟩ : ∃ (p : Fin 4000) (u : Fin 1), j = ix2 p u := ⟨j 0, j 1, eq_ix2 j⟩
  show k2_pay1 (F := Ideal) (iblk2 V c 0 t) (iblk2 V c 1 t) (iblk2 V c 2 t) (iblk2 V c 3 t) (iblk2 V c 4 t) (ix2 p u)
    = classColumn (V c main_v42) (V c main_v16) (V c main_v18) (V c main_v19) (V c main_v20) (((cfg2.win 5).blk t).view.emb (ix2 p u))
  refine (payload_apply (iblk2 V c 0 t) (iblk2 V c 1 t) (iblk2 V c 2 t) (iblk2 V c 3 t) (iblk2 V c 4 t) p u).trans ?_
  unfold classColumn
  have hr : (((cfg2.win 5).blk t).view.emb (ix2 p u) 0).val = t.val * 4000 + p.val := by
    show win2_5.index t 0 * 4000 + 1 * p.val = _; rw [e50]; omega
  rw [cbias_apply V c t]
  refine congrArg (· + _) (Finset.sum_congr rfl fun k _ => ?_)
  rw [rows_apply V c t p k ⟨_, (((cfg2.win 5).blk t).view.emb (ix2 p u) 0).isLt⟩ hr,
    dnorm_apply V c t p ⟨_, (((cfg2.win 5).blk t).view.emb (ix2 p u) 0).isLt⟩ hr, bias_apply V c t k, cweights_apply V c t k]

/-- An index of the column is in point t's block iff each coordinate is in the block's range. -/
theorem mem_blk (t : Fin cfg2.N) (i : S100000x1.Idx) :
    i ∈ ((cfg2.win 5).blk t).view.set ↔ ∀ a : Fin 2, win2_5.index t a * S4000x1.size a ≤ (i a).val ∧ (i a).val < win2_5.index t a * S4000x1.size a + S4000x1.size a := by
  show i ∈ ((View.whole main_v43).slice (win2_5.rect t)).set ↔ _
  rw [View.set_slice_whole, Rect.mem_set_unit]
  exact Iff.rfl

/-- Every row lies in the block of the point row / 4000. -/
theorem cover (i : S100000x1.Idx) : ∃ t : Fin cfg2.N, (cfg2.win 5).flush t = true ∧ i ∈ ((cfg2.win 5).blk t).view.set := by
  have hi0 : (i 0).val < 100000 := (i 0).isLt
  have hi1 : (i 1).val < 1 := (i 1).isLt
  refine ⟨⟨(i 0).val / 4000, by rw [show cfg2.N = 25 from N_2]; omega⟩, flush2_5 _, ?_⟩
  rw [mem_blk]
  obtain ⟨-, -, -, -, -, -, -, -, -, -, e50, e51⟩ := idx_facts ⟨(i 0).val / 4000, by rw [show cfg2.N = 25 from N_2]; omega⟩
  intro a
  match a with
  | ⟨0, _⟩ => show win2_5.index _ 0 * 4000 ≤ (i 0).val ∧ (i 0).val < win2_5.index _ 0 * 4000 + 4000; rw [e50]; show (i 0).val / 4000 * 4000 ≤ (i 0).val ∧ (i 0).val < (i 0).val / 4000 * 4000 + 4000; omega
  | ⟨1, _⟩ => show win2_5.index _ 1 * 1 ≤ (i 1).val ∧ (i 1).val < win2_5.index _ 1 * 1 + 1; rw [e51]; omega

/-- The region's output column after its run: the class column of the arrays as the region finds them. -/
theorem final (c : Dev nD) :
    (dat2 V c).arrAt 5 cfg2.N = classColumn (V c main_v42) (V c main_v16) (V c main_v18) (V c main_v19) (V c main_v20) :=
  (dat2 V c).arrAt_eq_of_cover 5 _ (fun t _ => flushed_eq V c t) cover

end Cert.KernelIdeal.FinalLayer

end
-- ==== Proof.Entry.lean ====
/-
  What each region finds in the arrays it reads. The norm columns, the bias rows, the class weights and the class bias
  are written once by the host operations before the first region and never again; the edge lists and the weights are
  launch arrays nobody writes; each later region's first operand is the shared neighbour aggregation of what the
  region before it left. Every fact here walks one buffer back through the host stretches that do not write it and
  the regions that only read it.
-/
import proofs.«180304_j56487409877510_1_alg».proof.Proof.Gen.KernelIdeal.Frame
import proofs.«180304_j56487409877510_1_alg».proof.Proof.Gen.ReferenceIdeal.Read
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- A buffer no operation of a stretch writes holds after the stretch what it held before. -/
macro "stretch_keeps" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- The neighbour aggregation both programs apply to a node array: gather the rows at the (wrapped) source ids,
    add them up at the destination ids. It is carried as one function of the array and never opened. -/
def aggregate (M : (⟨S100000x128, .f32⟩ : BufTy).Contents (Elt Ideal)) (x7 x8 : (⟨S1600000, .i32⟩ : BufTy).Contents (Elt Ideal)) :
    (⟨S100000x128, .f32⟩ : BufTy).Contents (Elt Ideal) :=
  Host.scatterAdd (F := Ideal) (φ := .f32) Cert.ReferenceIdeal.scatter_S100000x128_S1600000x1_S1600000x128_1_0_0_1 (Cert.ReferenceIdeal.Read.val_main_v26 (F := Ideal)) (Cert.ReferenceIdeal.Read.val_main_v27 (F := Ideal) x8)
    (Host.gather Cert.ReferenceIdeal.gather_S100000x128_S1600000x1_S1600000x128_1_0_n_n_0_1_1128 M (Cert.ReferenceIdeal.Read.val_main_v24 (F := Ideal) x7))

/-! ## The edge lists at every boundary they are read at -/

theorem W1_main_arg7 (c : Dev nD) : W1 m ρ c (Proc.devRef .tc main_arg7) = (m ((c : Thread nD τ).loc main_arg7)) := by
  show StableHlo.after hostOps0 (W0 m ρ c) (Proc.devRef .tc main_arg7) = W0 m ρ c (Proc.devRef .tc main_arg7)
  stretch_keeps
theorem W2_main_arg7 (c : Dev nD) : W2 m ρ c (Proc.devRef .tc main_arg7) = (m ((c : Thread nD τ).loc main_arg7)) :=
  (W2_of_ne m ρ c main_arg7 (by decide)).trans (W1_main_arg7 m ρ c)
theorem W3_main_arg7 (c : Dev nD) : W3 m ρ c (Proc.devRef .tc main_arg7) = (m ((c : Thread nD τ).loc main_arg7)) := by
  refine Eq.trans ?_ (W2_main_arg7 m ρ c)
  show StableHlo.after hostOps1 (W2 m ρ c) (Proc.devRef .tc main_arg7) = W2 m ρ c (Proc.devRef .tc main_arg7)
  stretch_keeps
theorem W4_main_arg7 (c : Dev nD) : W4 m ρ c (Proc.devRef .tc main_arg7) = (m ((c : Thread nD τ).loc main_arg7)) :=
  (W4_of_ne m ρ c main_arg7 (by decide)).trans (W3_main_arg7 m ρ c)

theorem W1_main_arg8 (c : Dev nD) : W1 m ρ c (Proc.devRef .tc main_arg8) = (m ((c : Thread nD τ).loc main_arg8)) := by
  show StableHlo.after hostOps0 (W0 m ρ c) (Proc.devRef .tc main_arg8) = W0 m ρ c (Proc.devRef .tc main_arg8)
  stretch_keeps
theorem W2_main_arg8 (c : Dev nD) : W2 m ρ c (Proc.devRef .tc main_arg8) = (m ((c : Thread nD τ).loc main_arg8)) :=
  (W2_of_ne m ρ c main_arg8 (by decide)).trans (W1_main_arg8 m ρ c)
theorem W3_main_arg8 (c : Dev nD) : W3 m ρ c (Proc.devRef .tc main_arg8) = (m ((c : Thread nD τ).loc main_arg8)) := by
  refine Eq.trans ?_ (W2_main_arg8 m ρ c)
  show StableHlo.after hostOps1 (W2 m ρ c) (Proc.devRef .tc main_arg8) = W2 m ρ c (Proc.devRef .tc main_arg8)
  stretch_keeps
theorem W4_main_arg8 (c : Dev nD) : W4 m ρ c (Proc.devRef .tc main_arg8) = (m ((c : Thread nD τ).loc main_arg8)) :=
  (W4_of_ne m ρ c main_arg8 (by decide)).trans (W3_main_arg8 m ρ c)

/-! ## At the first region's entry -/

theorem W1_main_arg0 (c : Dev nD) : W1 m ρ c (Proc.devRef .tc main_arg0) = (m ((c : Thread nD τ).loc main_arg0)) := by
  show StableHlo.after hostOps0 (W0 m ρ c) (Proc.devRef .tc main_arg0) = W0 m ρ c (Proc.devRef .tc main_arg0)
  stretch_keeps
theorem W1_main_arg1 (c : Dev nD) : W1 m ρ c (Proc.devRef .tc main_arg1) = (m ((c : Thread nD τ).loc main_arg1)) := by
  show StableHlo.after hostOps0 (W0 m ρ c) (Proc.devRef .tc main_arg1) = W0 m ρ c (Proc.devRef .tc main_arg1)
  stretch_keeps
theorem W1_main_arg3 (c : Dev nD) : W1 m ρ c (Proc.devRef .tc main_arg3) = (m ((c : Thread nD τ).loc main_arg3)) := by
  show StableHlo.after hostOps0 (W0 m ρ c) (Proc.devRef .tc main_arg3) = W0 m ρ c (Proc.devRef .tc main_arg3)
  stretch_keeps

/-- The source-side norm column: the reference's norm vector as a column. -/
theorem W1_main_v11 (c : Dev nD) :
    W1 m ρ c (Proc.devRef .tc main_v11)
      = shapeCast S100000x1 (Cert.ReferenceIdeal.Read.val_main_v10 (F := Ideal) (m ((c : Thread nD τ).loc main_arg7))) shapeCasts_S100000_S100000x1 := by
  show StableHlo.after hostOps0 (W0 m ρ c) (Proc.devRef .tc main_v11) = _
  after_results
  rfl
/-- The destination-side norm column: the reference's norm vector as a column. -/
theorem W1_main_v16 (c : Dev nD) :
    W1 m ρ c (Proc.devRef .tc main_v16)
      = shapeCast S100000x1 (Cert.ReferenceIdeal.Read.val_main_v14 (F := Ideal) (m ((c : Thread nD τ).loc main_arg8))) shapeCasts_S100000_S100000x1 := by
  show StableHlo.after hostOps0 (W0 m ρ c) (Proc.devRef .tc main_v16) = _
  after_results
  rfl
/-- The first bias as a row. -/
theorem W1_main_v17 (c : Dev nD) :
    W1 m ρ c (Proc.devRef .tc main_v17) = shapeCast S1x128 (m ((c : Thread nD τ).loc main_arg2)) shapeCasts_S128_S1x128 := by
  show StableHlo.after hostOps0 (W0 m ρ c) (Proc.devRef .tc main_v17) = _
  after_results
  rfl
/-- The second bias as a row. -/
theorem W1_main_v18 (c : Dev nD) :
    W1 m ρ c (Proc.devRef .tc main_v18) = shapeCast S1x128 (m ((c : Thread nD τ).loc main_arg4)) shapeCasts_S128_S1x128 := by
  show StableHlo.after hostOps0 (W0 m ρ c) (Proc.devRef .tc main_v18) = _
  after_results
  rfl
/-- The class weights, a column, as a row. -/
theorem W1_main_v19 (c : Dev nD) :
    W1 m ρ c (Proc.devRef .tc main_v19) = shapeCast S1x128 (m ((c : Thread nD τ).loc main_arg5)) shapeCasts_S128x1_S1x128 := by
  show StableHlo.after hostOps0 (W0 m ρ c) (Proc.devRef .tc main_v19) = _
  after_results
  rfl
/-- The class bias as a one-entry array. -/
theorem W1_main_v20 (c : Dev nD) :
    W1 m ρ c (Proc.devRef .tc main_v20) = shapeCast S1x1 (m ((c : Thread nD τ).loc main_arg6)) shapeCasts_S1_S1x1 := by
  show StableHlo.after hostOps0 (W0 m ρ c) (Proc.devRef .tc main_v20) = _
  after_results
  rfl

/-! ## At the second region's entry -/

/-- The aggregate the second region reads is the aggregation of what the first region left. -/
theorem W3_main_v31 (c : Dev nD) :
    W3 m ρ c (Proc.devRef .tc main_v31) = aggregate (W2 m ρ c (Proc.devRef .tc main_v21)) (W2 m ρ c (Proc.devRef .tc main_arg7)) (W2 m ρ c (Proc.devRef .tc main_arg8)) := by
  show StableHlo.after hostOps1 (W2 m ρ c) (Proc.devRef .tc main_v31) = _
  after_results
  rfl

theorem W3_main_v16 (c : Dev nD) : W3 m ρ c (Proc.devRef .tc main_v16) = W1 m ρ c (Proc.devRef .tc main_v16) := by
  refine Eq.trans ?_ (W2_of_ne m ρ c main_v16 (by decide))
  show StableHlo.after hostOps1 (W2 m ρ c) (Proc.devRef .tc main_v16) = W2 m ρ c (Proc.devRef .tc main_v16)
  stretch_keeps
theorem W3_main_v17 (c : Dev nD) : W3 m ρ c (Proc.devRef .tc main_v17) = W1 m ρ c (Proc.devRef .tc main_v17) := by
  refine Eq.trans ?_ (W2_of_ne m ρ c main_v17 (by decide))
  show StableHlo.after hostOps1 (W2 m ρ c) (Proc.devRef .tc main_v17) = W2 m ρ c (Proc.devRef .tc main_v17)
  stretch_keeps
theorem W3_main_v11 (c : Dev nD) : W3 m ρ c (Proc.devRef .tc main_v11) = W1 m ρ c (Proc.devRef .tc main_v11) := by
  refine Eq.trans ?_ ((W2_arr m ρ c 1).trans (((dat0 (V1 m ρ) c).arrAt_in 1 rfl _).trans (A_eq0 (V1 m ρ) c 1)))
  show StableHlo.after hostOps1 (W2 m ρ c) (Proc.devRef .tc main_v11) = W2 m ρ c (Proc.devRef .tc main_v11)
  stretch_keeps
theorem W3_main_arg3 (c : Dev nD) : W3 m ρ c (Proc.devRef .tc main_arg3) = (m ((c : Thread nD τ).loc main_arg3)) := by
  refine Eq.trans ?_ ((W2_of_ne m ρ c main_arg3 (by decide)).trans (W1_main_arg3 m ρ c))
  show StableHlo.after hostOps1 (W2 m ρ c) (Proc.devRef .tc main_arg3) = W2 m ρ c (Proc.devRef .tc main_arg3)
  stretch_keeps

/-! ## At the third region's entry -/

/-- The aggregate the third region reads is the aggregation of what the second region left. -/
theorem W5_main_v42 (c : Dev nD) :
    W5 m ρ c (Proc.devRef .tc main_v42) = aggregate (W4 m ρ c (Proc.devRef .tc main_v32)) (W4 m ρ c (Proc.devRef .tc main_arg7)) (W4 m ρ c (Proc.devRef .tc main_arg8)) := by
  show StableHlo.after hostOps2 (W4 m ρ c) (Proc.devRef .tc main_v42) = _
  after_results
  rfl

theorem W5_main_v16 (c : Dev nD) : W5 m ρ c (Proc.devRef .tc main_v16) = W1 m ρ c (Proc.devRef .tc main_v16) := by
  refine Eq.trans ?_ (((W4_arr m ρ c 1).trans (((dat1 (V3 m ρ) c).arrAt_in 1 rfl _).trans (A_eq1 (V3 m ρ) c 1))).trans (W3_main_v16 m ρ c))
  show StableHlo.after hostOps2 (W4 m ρ c) (Proc.devRef .tc main_v16) = W4 m ρ c (Proc.devRef .tc main_v16)
  stretch_keeps
theorem W5_main_v18 (c : Dev nD) : W5 m ρ c (Proc.devRef .tc main_v18) = W1 m ρ c (Proc.devRef .tc main_v18) := by
  have h3 : W3 m ρ c (Proc.devRef .tc main_v18) = W1 m ρ c (Proc.devRef .tc main_v18) := by
    refine Eq.trans ?_ (W2_of_ne m ρ c main_v18 (by decide))
    show StableHlo.after hostOps1 (W2 m ρ c) (Proc.devRef .tc main_v18) = W2 m ρ c (Proc.devRef .tc main_v18)
    stretch_keeps
  refine Eq.trans ?_ ((W4_of_ne m ρ c main_v18 (by decide)).trans h3)
  show StableHlo.after hostOps2 (W4 m ρ c) (Proc.devRef .tc main_v18) = W4 m ρ c (Proc.devRef .tc main_v18)
  stretch_keeps
theorem W5_main_v19 (c : Dev nD) : W5 m ρ c (Proc.devRef .tc main_v19) = W1 m ρ c (Proc.devRef .tc main_v19) := by
  have h3 : W3 m ρ c (Proc.devRef .tc main_v19) = W1 m ρ c (Proc.devRef .tc main_v19) := by
    refine Eq.trans ?_ (W2_of_ne m ρ c main_v19 (by decide))
    show StableHlo.after hostOps1 (W2 m ρ c) (Proc.devRef .tc main_v19) = W2 m ρ c (Proc.devRef .tc main_v19)
    stretch_keeps
  refine Eq.trans ?_ ((W4_of_ne m ρ c main_v19 (by decide)).trans h3)
  show StableHlo.after hostOps2 (W4 m ρ c) (Proc.devRef .tc main_v19) = W4 m ρ c (Proc.devRef .tc main_v19)
  stretch_keeps
theorem W5_main_v20 (c : Dev nD) : W5 m ρ c (Proc.devRef .tc main_v20) = W1 m ρ c (Proc.devRef .tc main_v20) := by
  have h3 : W3 m ρ c (Proc.devRef .tc main_v20) = W1 m ρ c (Proc.devRef .tc main_v20) := by
    refine Eq.trans ?_ (W2_of_ne m ρ c main_v20 (by decide))
    show StableHlo.after hostOps1 (W2 m ρ c) (Proc.devRef .tc main_v20) = W2 m ρ c (Proc.devRef .tc main_v20)
    stretch_keeps
  refine Eq.trans ?_ ((W4_of_ne m ρ c main_v20 (by decide)).trans h3)
  show StableHlo.after hostOps2 (W4 m ρ c) (Proc.devRef .tc main_v20) = W4 m ρ c (Proc.devRef .tc main_v20)
  stretch_keeps

end Cert.KernelIdeal.Entry

end
-- ==== Proof.Layers.lean ====
/-
  Each region's whole-array function is the reference's stage. Both sides are read at an index: the reference's
  host product is the sum over the contracted axis of left entry × right entry, its broadcasts read the norm vector,
  the bias and the class bias at the row or lane, and the kernel's columns and rows are the same vectors cast to
  [n, 1] and [1, n]. The two sums then agree term by term; no law of the extended reals is needed.
-/
import proofs.«180304_j56487409877510_1_alg».proof.Proof.Region0
import proofs.«180304_j56487409877510_1_alg».proof.Proof.Region1
import proofs.«180304_j56487409877510_1_alg».proof.Proof.Region2
import proofs.«180304_j56487409877510_1_alg».proof.Proof.Entry

set_option maxRecDepth 16384

noncomputable section

namespace Cert.KernelIdeal.Layers

open Cert.KernelIdeal Cert.KernelIdeal.Facts₀ Idealize.ShloMosaic Idealize.ShloMosaic.TcCoe
open Idealize.ShloMosaic.ValueIdx
open Cert.KernelIdeal.Entry (aggregate)

/-- A rank-2 index with the coordinates a and b is (a, b). -/
theorem ix2_of_vals {n0 n1 : Nat} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with the coordinate a is (a). -/
theorem ix1_of_val {n : Nat} (f : (⟨1, ![n]⟩ : Shape).Idx) (a : Fin n) (h0 : (f 0).val = a.val) : f = ix1 a :=
  funext fun d => Fin.ext (by
    match d with
    | ⟨0, _⟩ => exact h0)

/-- A column [a, 1] cast to the row [1, a] reads, at (0, k), the column's entry k. -/
theorem shapeCast_a1_1a_apply {α : Type} {a : ℕ} (x : (⟨2, ![a, 1]⟩ : Shape).Idx → α)
    (h : (⟨2, ![a, 1]⟩ : Shape).ShapeCasts ⟨2, ![1, a]⟩) (k : Fin a) :
    shapeCast ⟨2, ![1, a]⟩ x h (ix2 (0 : Fin 1) k) = x (ix2 k (0 : Fin 1)) :=
  shapeCast_apply x h _ _ (by
    rw [Shape.rowMajor_val_two, Shape.rowMajor_val_two]
    show k.val * 1 + 0 = 0 * a + k.val
    omega)

/-- The first layer's linear map: the kernel's row-scaled product with the norm as a column is the reference's
    product of the features scaled by the broadcast norm with the weights; both are, entry by entry, the sum over the
    feature axis of feature × norm × weight. -/
theorem linear1 (x0 : (⟨S100000x256, .f32⟩ : BufTy).Contents (Elt Ideal)) (x1 : (⟨S256x128, .f32⟩ : BufTy).Contents (Elt Ideal)) (x7 : (⟨S1600000, .i32⟩ : BufTy).Contents (Elt Ideal)) :
    ScaleMatmul.scaledProduct x0 (shapeCast S100000x1 (Cert.ReferenceIdeal.Read.val_main_v10 (F := Ideal) x7) shapeCasts_S100000_S100000x1) x1
      = Cert.ReferenceIdeal.Read.val_main_v18 (F := Ideal) x0 x1 x7 := by
  funext i
  rw [Cert.ReferenceIdeal.Read.val_main_v18_apply]
  unfold ScaleMatmul.scaledProduct
  refine Finset.sum_congr rfl fun k _ => ?_
  rw [Cert.ReferenceIdeal.Read.val_main_v17_apply, Cert.ReferenceIdeal.Read.val_main_v16_apply, Cert.ReferenceIdeal.Read.val_main_v15_apply]
  have e3 : Cert.ReferenceIdeal.Read.idx_main_v15 (Cert.ReferenceIdeal.Read.idx_main_v16 (Cert.ReferenceIdeal.Read.lidx_main_v18 i k)) = ix1 (⟨(i 0).val, (i 0).isLt⟩ : Fin 100000) := ix1_of_val _ _ rfl
  have e1 : Cert.ReferenceIdeal.Read.lidx_main_v18 i k = ix2 (⟨(i 0).val, (i 0).isLt⟩ : Fin 100000) k := ix2_of_vals _ _ _ rfl rfl
  have e2 : Cert.ReferenceIdeal.Read.ridx_main_v18 i k = ix2 k (⟨(i 1).val, (i 1).isLt⟩ : Fin 128) := ix2_of_vals _ _ _ rfl rfl
  rw [e3, e1, e2, Cert.LibKeepdims.shapeCast_a_a1_apply]
  rfl

/-- The reference's first aggregate is the shared aggregation of its first linear map. -/
theorem ref_aggregate1 (x0 : (⟨S100000x256, .f32⟩ : BufTy).Contents (Elt Ideal)) (x1 : (⟨S256x128, .f32⟩ : BufTy).Contents (Elt Ideal)) (x7 x8 : (⟨S1600000, .i32⟩ : BufTy).Contents (Elt Ideal)) :
    Cert.ReferenceIdeal.Read.val_main_v28 (F := Ideal) x0 x1 x7 x8 = aggregate (Cert.ReferenceIdeal.Read.val_main_v18 (F := Ideal) x0 x1 x7) x7 x8 := rfl

/-- The reference's second aggregate is the shared aggregation of its second linear map. -/
theorem ref_aggregate2 (x0 : (⟨S100000x256, .f32⟩ : BufTy).Contents (Elt Ideal)) (x1 : (⟨S256x128, .f32⟩ : BufTy).Contents (Elt Ideal)) (x2 : (⟨S128, .f32⟩ : BufTy).Contents (Elt Ideal)) (x3 : (⟨S128x128, .f32⟩ : BufTy).Contents (Elt Ideal)) (x7 x8 : (⟨S1600000, .i32⟩ : BufTy).Contents (Elt Ideal)) :
    Cert.ReferenceIdeal.Read.val_main_v49 (F := Ideal) x0 x1 x2 x3 x7 x8 = aggregate (Cert.ReferenceIdeal.Read.val_main_v39 (F := Ideal) x0 x1 x2 x3 x7 x8) x7 x8 := rfl

/-- The second layer's linear map: the kernel's fused normalise–bias–clamp–scale–product over the first aggregate is the
    reference's; both are, entry by entry, the sum over the hidden axis of max(aggregate × norm + bias, 0) × norm × weight. -/
theorem linear2 (x0 : (⟨S100000x256, .f32⟩ : BufTy).Contents (Elt Ideal)) (x1 : (⟨S256x128, .f32⟩ : BufTy).Contents (Elt Ideal)) (x2 : (⟨S128, .f32⟩ : BufTy).Contents (Elt Ideal)) (x3 : (⟨S128x128, .f32⟩ : BufTy).Contents (Elt Ideal)) (x7 x8 : (⟨S1600000, .i32⟩ : BufTy).Contents (Elt Ideal)) :
    FusedLayer.hiddenProduct (aggregate (Cert.ReferenceIdeal.Read.val_main_v18 (F := Ideal) x0 x1 x7) x7 x8)
        (shapeCast S100000x1 (Cert.ReferenceIdeal.Read.val_main_v14 (F := Ideal) x8) shapeCasts_S100000_S100000x1)
        (shapeCast S1x128 x2 shapeCasts_S128_S1x128)
        (shapeCast S100000x1 (Cert.ReferenceIdeal.Read.val_main_v10 (F := Ideal) x7) shapeCasts_S100000_S100000x1) x3
      = Cert.ReferenceIdeal.Read.val_main_v39 (F := Ideal) x0 x1 x2 x3 x7 x8 := by
  funext i
  rw [Cert.ReferenceIdeal.Read.val_main_v39_apply]
  unfold FusedLayer.hiddenProduct
  refine Finset.sum_congr rfl fun k _ => ?_
  rw [Cert.ReferenceIdeal.Read.val_main_v38_apply, Cert.ReferenceIdeal.Read.val_main_v35_apply, Cert.ReferenceIdeal.Read.val_main_v34_apply, Cert.ReferenceIdeal.Read.val_main_v31_apply, Cert.ReferenceIdeal.Read.val_main_v37_apply,
    Cert.ReferenceIdeal.Read.val_main_v36_apply, Cert.ReferenceIdeal.Read.val_main_v33_apply, Cert.ReferenceIdeal.Read.val_main_v32_apply, Cert.ReferenceIdeal.Read.val_main_v30_apply, Cert.ReferenceIdeal.Read.val_main_v29_apply,
    Cert.ReferenceIdeal.Read.val_main_call0_v0_apply, Cert.ReferenceIdeal.Read.val_main_call0_cst_apply, ref_aggregate1]
  have e29 : Cert.ReferenceIdeal.Read.idx_main_v29 (Cert.ReferenceIdeal.Read.idx_main_v30 (Cert.ReferenceIdeal.Read.lidx_main_v39 i k)) = ix1 (⟨(i 0).val, (i 0).isLt⟩ : Fin 100000) := ix1_of_val _ _ rfl
  have e32 : Cert.ReferenceIdeal.Read.idx_main_v32 (Cert.ReferenceIdeal.Read.idx_main_v33 (Cert.ReferenceIdeal.Read.lidx_main_v39 i k)) = ix1 k := ix1_of_val _ _ rfl
  have e36 : Cert.ReferenceIdeal.Read.idx_main_v36 (Cert.ReferenceIdeal.Read.idx_main_v37 (Cert.ReferenceIdeal.Read.lidx_main_v39 i k)) = ix1 (⟨(i 0).val, (i 0).isLt⟩ : Fin 100000) := ix1_of_val _ _ rfl
  have e1 : Cert.ReferenceIdeal.Read.lidx_main_v39 i k = ix2 (⟨(i 0).val, (i 0).isLt⟩ : Fin 100000) k := ix2_of_vals _ _ _ rfl rfl
  have e2 : Cert.ReferenceIdeal.Read.ridx_main_v39 i k = ix2 k (⟨(i 1).val, (i 1).isLt⟩ : Fin 128) := ix2_of_vals _ _ _ rfl rfl
  rw [e29, e32, e36, e1, e2, Cert.LibKeepdims.shapeCast_a_a1_apply, Cert.LibKeepdims.shapeCast_a_a1_apply, shapeCast_a_1a_apply]
  rfl

/-- The output layer: the kernel's lane sum of (aggregate × norm + bias) × class weight, plus the class bias, is the
    reference's product with the class-weight column plus the broadcast class bias. -/
theorem classify (x0 : (⟨S100000x256, .f32⟩ : BufTy).Contents (Elt Ideal)) (x1 : (⟨S256x128, .f32⟩ : BufTy).Contents (Elt Ideal)) (x2 : (⟨S128, .f32⟩ : BufTy).Contents (Elt Ideal)) (x3 : (⟨S128x128, .f32⟩ : BufTy).Contents (Elt Ideal)) (x4 : (⟨S128, .f32⟩ : BufTy).Contents (Elt Ideal))
    (x5 : (⟨S128x1, .f32⟩ : BufTy).Contents (Elt Ideal)) (x6 : (⟨S1, .f32⟩ : BufTy).Contents (Elt Ideal)) (x7 x8 : (⟨S1600000, .i32⟩ : BufTy).Contents (Elt Ideal)) :
    FinalLayer.classColumn (aggregate (Cert.ReferenceIdeal.Read.val_main_v39 (F := Ideal) x0 x1 x2 x3 x7 x8) x7 x8)
        (shapeCast S100000x1 (Cert.ReferenceIdeal.Read.val_main_v14 (F := Ideal) x8) shapeCasts_S100000_S100000x1)
        (shapeCast S1x128 x4 shapeCasts_S128_S1x128) (shapeCast S1x128 x5 shapeCasts_S128x1_S1x128) (shapeCast S1x1 x6 shapeCasts_S1_S1x1)
      = Cert.ReferenceIdeal.Read.val_main_v59 (F := Ideal) x0 x1 x2 x3 x4 x5 x6 x7 x8 := by
  funext i
  rw [Cert.ReferenceIdeal.Read.val_main_v59_apply, Cert.ReferenceIdeal.Read.val_main_v56_apply, Cert.ReferenceIdeal.Read.val_main_v58_apply, Cert.ReferenceIdeal.Read.val_main_v57_apply]
  unfold FinalLayer.classColumn
  have hi1 : (i 1).val = 0 := by have h1 : (i 1).val < 1 := (i 1).isLt; omega
  refine congrArg₂ (· + ·) (Finset.sum_congr rfl fun k _ => ?_) ?_
  · rw [Cert.ReferenceIdeal.Read.val_main_v55_apply, Cert.ReferenceIdeal.Read.val_main_v52_apply, Cert.ReferenceIdeal.Read.val_main_v54_apply, Cert.ReferenceIdeal.Read.val_main_v53_apply, Cert.ReferenceIdeal.Read.val_main_v51_apply,
      Cert.ReferenceIdeal.Read.val_main_v50_apply, ref_aggregate2]
    have e50 : Cert.ReferenceIdeal.Read.idx_main_v50 (Cert.ReferenceIdeal.Read.idx_main_v51 (Cert.ReferenceIdeal.Read.lidx_main_v56 i k)) = ix1 (⟨(i 0).val, (i 0).isLt⟩ : Fin 100000) := ix1_of_val _ _ rfl
    have e53 : Cert.ReferenceIdeal.Read.idx_main_v53 (Cert.ReferenceIdeal.Read.idx_main_v54 (Cert.ReferenceIdeal.Read.lidx_main_v56 i k)) = ix1 k := ix1_of_val _ _ rfl
    have e1 : Cert.ReferenceIdeal.Read.lidx_main_v56 i k = ix2 (⟨(i 0).val, (i 0).isLt⟩ : Fin 100000) k := ix2_of_vals _ _ _ rfl rfl
    have e2 : Cert.ReferenceIdeal.Read.ridx_main_v56 i k = ix2 k (0 : Fin 1) := ix2_of_vals _ _ _ rfl hi1
    rw [e50, e53, e1, e2, Cert.LibKeepdims.shapeCast_a_a1_apply, shapeCast_a_1a_apply, shapeCast_a1_1a_apply]
    rfl
  · have e57 : Cert.ReferenceIdeal.Read.idx_main_v57 (Cert.ReferenceIdeal.Read.idx_main_v58 i) = ix1 (0 : Fin 1) := ix1_of_val _ _ rfl
    rw [e57, shapeCast_a_1a_apply]

end Cert.KernelIdeal.Layers

end
-- ==== Proof.KernelValue.lean ====
/-
  The kernel program's result. Region by region, the array a region leaves is the reference's stage of the launch
  arrays: the region's whole-array function at what it finds (Entry), identified with the stage (Layers). The last
  region's output is the result array, so the run ends with it at the reference's result function.
-/
import proofs.«180304_j56487409877510_1_alg».proof.Proof.Layers
import proofs.«180304_j56487409877510_1_alg».proof.Proof.FrameResult

set_option maxRecDepth 16384

noncomputable section

namespace Cert.KernelIdeal.Result

open Cert.KernelIdeal Cert.KernelIdeal.Gen Idealize.ShloMosaic Idealize.ShloMosaic.TcCoe Idealize.SL.Sem
open Cert.KernelIdeal.Entry Cert.KernelIdeal.Layers

variable (m : (ℓ : Loc nD τ sig) → Buf (Elt Ideal) ℓ) (ρ : Dev nD → PrngReg)

/-- What the first region leaves: the reference's first linear map of the launch arrays. -/
theorem first_output (c : Dev nD) :
    W2 m ρ c (Proc.devRef .tc main_v21)
      = Cert.ReferenceIdeal.Read.val_main_v18 (F := Ideal) (m ((c : Thread nD τ).loc main_arg0)) (m ((c : Thread nD τ).loc main_arg1)) (m ((c : Thread nD τ).loc main_arg7)) := by
  refine (W2_arr m ρ c 3).trans ?_
  refine (ScaleMatmul.final (V1 m ρ) c).trans ?_
  show ScaleMatmul.scaledProduct (W1 m ρ c (Proc.devRef .tc main_arg0)) (W1 m ρ c (Proc.devRef .tc main_v11)) (W1 m ρ c (Proc.devRef .tc main_arg1)) = _
  rw [W1_main_arg0, W1_main_v11, W1_main_arg1]
  exact linear1 _ _ _

/-- What the second region leaves: the reference's second linear map of the launch arrays. -/
theorem second_output (c : Dev nD) :
    W4 m ρ c (Proc.devRef .tc main_v32)
      = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  refine (W4_arr m ρ c 5).trans ?_
  refine (FusedLayer.final (V3 m ρ) c).trans ?_
  show FusedLayer.hiddenProduct (W3 m ρ c (Proc.devRef .tc main_v31)) (W3 m ρ c (Proc.devRef .tc main_v16)) (W3 m ρ c (Proc.devRef .tc main_v17))
    (W3 m ρ c (Proc.devRef .tc main_v11)) (W3 m ρ c (Proc.devRef .tc main_arg3)) = _
  rw [W3_main_v31, first_output, W2_main_arg7, W2_main_arg8, W3_main_v16, W1_main_v16, W3_main_v17, W1_main_v17, W3_main_v11, W1_main_v11, W3_main_arg3]
  exact linear2 _ _ _ _ _ _

/-- What the third region leaves in the result array: the reference's result of the launch arrays. -/
theorem result (c : Dev nD) :
    W6 m ρ c (Proc.devRef .tc main_v43)
      = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 5).trans ?_
  refine (FinalLayer.final (V5 m ρ) c).trans ?_
  show FinalLayer.classColumn (W5 m ρ c (Proc.devRef .tc main_v42)) (W5 m ρ c (Proc.devRef .tc main_v16)) (W5 m ρ c (Proc.devRef .tc main_v18))
    (W5 m ρ c (Proc.devRef .tc main_v19)) (W5 m ρ c (Proc.devRef .tc main_v20)) = _
  rw [W5_main_v42, second_output, W4_main_arg7, W4_main_arg8, W5_main_v16, W1_main_v16, W5_main_v18, W1_main_v18, W5_main_v19, W1_main_v19, W5_main_v20, W1_main_v20]
  exact classify _ _ _ _ _ _ _ _ _

/-- The kernel program's run, read: the result array at the reference's function of the launch arrays, the arguments unchanged. -/
theorem run : θ_run defs (onTc (τ := τ) (main (F := Ideal))) ⟨m, fun _ => 0, ρ⟩ (fun r => ∀ c : Dev nD,
      r.2.mem ((c.tc : Thread nD τ).loc main_v43)
        = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result m ρ c), (h c).2⟩) (Cert.KernelIdeal.GenResult.run_result (F := Ideal) m ρ)

end Cert.KernelIdeal.Result

end
-- ==== Proof.lean ====
/-
  A two-layer graph convolution with a final linear classifier, on 100000 nodes and 1600000 edges.

  Both programs compute, with ns = max(outdeg, 1)^(-1/2) and nd = max(indeg, 1)^(-1/2) (the degree histograms, the power
  and the neighbour aggregation are the same host operations in both, and are never opened):
    M1 = (x · ns) W1,  A1 = aggregate M1,  H1 = max(A1 · nd + b1, 0),
    M2 = (H1 · ns) W2, A2 = aggregate M2,  out = (A2 · nd + b2) Wfc + bfc.
  The kernel program computes M1, M2 and out in three row-tiled regions (25 blocks of 4000 rows each); the reference
  computes them as whole-array host products. At the extended reals a change of float format is the identity, a
  product into a zero accumulator is the plain sum over the contracted axis, and a lane sum is the plain sum over the
  lanes: so each region's output array is, entry by entry, the reference's stage (Proof/Region*.lean read each region's
  blocks back as one whole-array function; Proof/Layers.lean identifies it with the reference's stage; Proof/Entry.lean
  carries the norm columns, bias rows and edge lists from the launch to the region that reads them). No law beyond
  reading both sides at an index is used, so the precondition is never opened.
-/
import proofs.«180304_j56487409877510_1_alg».proof.Defs
import proofs.«180304_j56487409877510_1_alg».proof.Proof.Gen.Kernel
import proofs.«180304_j56487409877510_1_alg».proof.Proof.Gen.Kernel.Skeleton
import proofs.«180304_j56487409877510_1_alg».proof.Proof.Gen.Kernel.Launch
import proofs.«180304_j56487409877510_1_alg».proof.Proof.Gen.Kernel.Points
import proofs.«180304_j56487409877510_1_alg».proof.Proof.Gen.Kernel.Frame
import proofs.«180304_j56487409877510_1_alg».proof.Proof.Gen.KernelIdeal
import proofs.«180304_j56487409877510_1_alg».proof.Proof.Gen.KernelIdeal.Skeleton
import proofs.«180304_j56487409877510_1_alg».proof.Proof.Gen.KernelIdeal.Launch
import proofs.«180304_j56487409877510_1_alg».proof.Proof.Gen.KernelIdeal.Points
import proofs.«180304_j56487409877510_1_alg».proof.Proof.Gen.KernelIdeal.Frame
import proofs.«180304_j56487409877510_1_alg».proof.Proof.Gen.ReferenceIdeal
import proofs.«180304_j56487409877510_1_alg».proof.Proof.Gen.ReferenceIdeal.Run
import proofs.«180304_j56487409877510_1_alg».proof.Proof.Gen.ReferenceIdeal.Read
import proofs.«180304_j56487409877510_1_alg».proof.Proof.Gen.Pre_finite_inputs
import proofs.«180304_j56487409877510_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result array at the reference's function of the (agreeing) launch arrays. -/
theorem algebraic : Cert.algebraic_KernelIdeal_ReferenceIdeal := by
  intro m ρ m' ρ' _ hagree
  refine ⟨fun c => Cert.ReferenceIdeal.Read.val_main_v59 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v59_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
